-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S14336x4096 : Shape := ⟨2, ![14336, 4096]⟩
abbrev S4096x14336 : Shape := ⟨2, ![4096, 14336]⟩
abbrev S14336 : Shape := ⟨1, ![14336]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S4096x14336 : S_.BroadcastsInDim S4096x14336 (![] : Fin 0 → Fin S4096x14336.rank)
  reducesTo_S4096x14336_S_d0_1 : S4096x14336.ReducesTo [0, 1] S_
  bcast_S_S14336 : S_.BroadcastsInDim S14336 (![] : Fin 0 → Fin S14336.rank)
  reducesTo_S14336_S_d0 : S14336.ReducesTo [0] S_

variable [Facts]

def fn_part1 {F : FTy → Type} [FloatOps F] (main_arg4 : FVec F S14336 .f32) (main_v13 : IVec S_ 1) (main_v16 : IVec S4096x14336 1) : IVec S_ 1 :=
  let main_c_5 : IVec S_ 1 := constantI S_ 1 1#1
  let main_v17 : IVec S_ 1 := (fun x v => Host.reduce IntOp.andi x v reducesTo_S4096x14336_S_d0_1 h_S_) main_v16 main_c_5
  let main_v18 : IVec S_ 1 := andi main_v13 main_v17
  let main_v19 : FVec F S14336 .f32 := Host.absf main_arg4
  let main_cst_6 : FVec F S_ .f32 := constant S_ .f32 0x7F800000#32
  let main_v20 : FVec F S14336 .f32 := broadcastInDim S14336 ![] bcast_S_S14336 main_cst_6
  let main_v21 : IVec S14336 1 := cmpf .olt main_v19 main_v20
  let main_c_7 : IVec S_ 1 := constantI S_ 1 1#1
  let main_v22 : IVec S_ 1 := (fun x v => Host.reduce IntOp.andi x v reducesTo_S14336_S_d0 h_S_) main_v21 main_c_7
  let main_v23 : IVec S_ 1 := andi main_v18 main_v22
  main_v23

def fn {F : FTy → Type} [FloatOps F] (main_arg0 : FVec F S4x2048x4096 .f32) (main_arg1 : FVec F S14336x4096 .f32) (main_arg2 : FVec F S14336x4096 .f32) (main_arg3 : FVec F S4096x14336 .f32) (main_arg4 : FVec F S14336 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S14336x4096 .f32 := Host.absf main_arg2
  let main_cst_2 : FVec F S_ .f32 := constant S_ .f32 0x7F800000#32
  let main_v10 : FVec F S14336x4096 .f32 := broadcastInDim S14336x4096 ![] bcast_S_S14336x4096 main_cst_2
  let main_v11 : IVec S14336x4096 1 := cmpf .olt main_v9 main_v10
  let main_c_3 : IVec S_ 1 := constantI S_ 1 1#1
  let main_v12 : IVec S_ 1 := (fun x v => Host.reduce IntOp.andi x v reducesTo_S14336x4096_S_d0_1 h_S_) main_v11 main_c_3
  let main_v13 : IVec S_ 1 := andi main_v8 main_v12
  let main_v14 : FVec F S4096x14336 .f32 := Host.absf main_arg3
  let main_cst_4 : FVec F S_ .f32 := constant S_ .f32 0x7F800000#32
  let main_v15 : FVec F S4096x14336 .f32 := broadcastInDim S4096x14336 ![] bcast_S_S4096x14336 main_cst_4
  let main_v16 : IVec S4096x14336 1 := cmpf .olt main_v14 main_v15
  fn_part1 (F := F) main_arg4 main_v13 main_v16
-- ==== Kernel.lean ====
abbrev S4x2048x4096 : Shape := ⟨3, ![4, 2048, 4096]⟩
abbrev S14336x4096 : Shape := ⟨2, ![14336, 4096]⟩
abbrev S4096x14336 : Shape := ⟨2, ![4096, 14336]⟩
abbrev S14336 : Shape := ⟨1, ![14336]⟩
abbrev S8192x4096 : Shape := ⟨2, ![8192, 4096]⟩
abbrev S1x14336 : Shape := ⟨2, ![1, 14336]⟩
abbrev S256x4096 : Shape := ⟨2, ![256, 4096]⟩
abbrev S4096x256 : Shape := ⟨2, ![4096, 256]⟩
abbrev S1x256 : Shape := ⟨2, ![1, 256]⟩
abbrev S256x256 : Shape := ⟨2, ![256, 256]⟩

abbrev nBuf : Space → Nat
  | .hbm => 13
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S14336x4096, .f32⟩
  | .hbm, ⟨2, _⟩ => ⟨S14336x4096, .f32⟩
  | .hbm, ⟨3, _⟩ => ⟨S4096x14336, .f32⟩
  | .hbm, ⟨4, _⟩ => ⟨S14336, .f32⟩
  | .hbm, ⟨5, _⟩ => ⟨S8192x4096, .f32⟩
  | .hbm, ⟨6, _⟩ => ⟨S8192x4096, .bf16⟩
  | .hbm, ⟨7, _⟩ => ⟨S14336x4096, .bf16⟩
  | .hbm, ⟨8, _⟩ => ⟨S14336x4096, .bf16⟩
  | .hbm, ⟨9, _⟩ => ⟨S4096x14336, .bf16⟩
  | .hbm, ⟨10, _⟩ => ⟨S1x14336, .f32⟩
  | .hbm, ⟨11, _⟩ => ⟨S8192x4096, .f32⟩
  | .hbm, ⟨12, _⟩ => ⟨S4x2048x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S4096x256, .bf16⟩
  | .local _ .vmem, ⟨7, _⟩ => ⟨S4096x256, .bf16⟩
  | .local _ .vmem, ⟨8, _⟩ => ⟨S1x256, .f32⟩
  | .local _ .vmem, ⟨9, _⟩ => ⟨S1x256, .f32⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 56], ![false, false]⟩

def k0_cond2 (i : grid0.Coords) : BitVec 1 :=
  let arg1 : BitVec 32 := BitVec.ofNat 32 (i 1).val
  let c55_i32 : BitVec 32 := 55#32
  let v34 : BitVec 1 := Scalar.cmpi .eq arg1 c55_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x2048x4096_S8192x4096 : S4x2048x4096.ShapeCasts S8192x4096
  bitsLt_bf16_f32 : FTy.bits .bf16 < FTy.bits .f32
  shapeCasts_S14336_S1x14336 : S14336.ShapeCasts S1x14336
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  natLt_1_32 : 1 < 32
  shapeCasts_S8192x4096_S4x2048x4096 : S8192x4096.ShapeCasts S4x2048x4096
  dot_S256x4096_S256x4096_S256x256_1_1_0_0_n_n_wf : DotDims.WF S256x4096 S256x4096 S256x256 [1] [1] [0] [0] [] []
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .bf16 = 32 ∨ (Rect.block (s := S8192x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S14336x4096.size a
  hwx0_1 : ∀ i : grid0.Coords, EltTy.bits .bf16 = 32 ∨ (Rect.block (s := S14336x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S14336x4096.size a
  hwx0_2 : ∀ i : grid0.Coords, EltTy.bits .bf16 = 32 ∨ (Rect.block (s := S14336x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x14336.size a
  hwx0_3 : ∀ i : grid0.Coords, EltTy.bits .bf16 = 32 ∨ (Rect.block (s := S4096x14336) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x14336.size a
  hwx0_4 : ∀ i : grid0.Coords, EltTy.bits .f32 = 32 ∨ (Rect.block (s := S1x14336) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S8192x4096.size a
  hwx0_5 : ∀ i : grid0.Coords, EltTy.bits .f32 = 32 ∨ (Rect.block (s := S8192x4096) S256x4096.size (cc0_transform_5 i) (hinb0_5 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S14336x4096 : Shape := ⟨2, ![14336, 4096]⟩
abbrev S4096x14336 : Shape := ⟨2, ![4096, 14336]⟩
abbrev S14336 : Shape := ⟨1, ![14336]⟩
abbrev S4x2048x14336 : Shape := ⟨3, ![4, 2048, 14336]⟩
abbrev S1x1x14336 : Shape := ⟨3, ![1, 1, 14336]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S14336x4096, .f32⟩
  | .hbm, ⟨2, _⟩ => ⟨S14336x4096, .f32⟩
  | .hbm, ⟨3, _⟩ => ⟨S4096x14336, .f32⟩
  | .hbm, ⟨4, _⟩ => ⟨S14336, .f32⟩
  | .hbm, ⟨5, _⟩ => ⟨S4x2048x14336, .f32⟩
  | .hbm, ⟨6, _⟩ => ⟨S1x1x14336, .f32⟩
  | .hbm, ⟨7, _⟩ => ⟨S4x2048x14336, .f32⟩
  | .hbm, ⟨8, _⟩ => ⟨S4x2048x14336, .f32⟩
  | .hbm, ⟨9, _⟩ => ⟨S4x2048x14336, .f32⟩
  | .hbm, ⟨10, _⟩ => ⟨S_, .f32⟩
  | .hbm, ⟨11, _⟩ => ⟨S4x2048x14336, .f32⟩
  | .hbm, ⟨12, _⟩ => ⟨S4x2048x14336, .i1⟩
  | .hbm, ⟨13, _⟩ => ⟨S4x2048x14336, .f32⟩
  | .hbm, ⟨14, _⟩ => ⟨S4x2048x14336, .f32⟩
  | .hbm, ⟨15, _⟩ => ⟨S4x2048x14336, .f32⟩
  | .hbm, ⟨16, _⟩ => ⟨S4x2048x14336, .f32⟩
  | .hbm, ⟨17, _⟩ => ⟨S4x2048x14336, .f32⟩
  | .hbm, ⟨18, _⟩ => ⟨S_, .f32⟩
  | .hbm, ⟨19, _⟩ => ⟨S4x2048x14336, .f32⟩
  | .hbm, ⟨20, _⟩ => ⟨S4x2048x14336, .f32⟩
  | .hbm, ⟨21, _⟩ => ⟨S_, .f32⟩
  | .hbm, ⟨22, _⟩ => ⟨S4x2048x14336, .f32⟩
  | .hbm, ⟨23, _⟩ => ⟨S4x2048x14336, .f32⟩
  | .hbm, ⟨24, _⟩ => ⟨S4x2048x14336, .f32⟩
  | .hbm, ⟨25, _⟩ => ⟨S4x2048x14336, .f32⟩
  | .hbm, ⟨26, _⟩ => ⟨S4x2048x14336, .f32⟩
  | .hbm, ⟨27, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]

class Facts₀ : Prop where
  bcast_S14336_S1x1x14336_2 : S14336.BroadcastsInDim S1x1x14336 (![2] : Fin 1 → Fin S1x1x14336.rank)
  bcast_S1x1x14336_S4x2048x14336_0_1_2 : S1x1x14336.BroadcastsInDim S4x2048x14336 (![0, 1, 2] : Fin 3 → Fin S4x2048x14336.rank)
  bcast_S_S4x2048x14336 : S_.BroadcastsInDim S4x2048x14336 (![] : Fin 0 → Fin S4x2048x14336.rank)
  dot_S4x2048x4096_S14336x4096_S4x2048x14336_2_1_01_0_n_n_wf : DotDims.WF S4x2048x4096 S14336x4096 S4x2048x14336 [2] [1] [0, 1] [0] [] []
  dot_S4x2048x14336_S4096x14336_S4x2048x4096_2_1_01_0_n_n_wf : DotDims.WF S4x2048x14336 S4096x14336 S4x2048x4096 [2] [1] [0, 1] [0] [] []

variable [Facts₀]

def dot_S4x2048x4096_S14336x4096_S4x2048x14336_2_1_01_0_n_n : DotDims S4x2048x4096 S14336x4096 S4x2048x14336 where
  lhsContracting := [2]
  rhsContracting := [1]
  lhsNonContracting := [0, 1]
  rhsNonContracting := [0]
  lhsBatch := []
  rhsBatch := []
  wf := dot_S4x2048x4096_S14336x4096_S4x2048x14336_2_1_01_0_n_n_wf
def dot_S4x2048x14336_S4096x14336_S4x2048x4096_2_1_01_0_n_n : DotDims S4x2048x14336 S4096x14336 S4x2048x4096 where
  lhsContracting := [2]
  rhsContracting := [1]
  lhsNonContracting := [0, 1]
  rhsNonContracting := [0]
  lhsBatch := []
  rhsBatch := []
  wf := dot_S4x2048x14336_S4096x14336_S4x2048x4096_2_1_01_0_n_n_wf

class Facts : Prop extends Facts₀ where

variable [Facts]
-- ==== Proof.Pieces.lean ====
/-
  What one grid step leaves behind, as values.

  The kernel walks a 32 × 56 grid: 32 tiles of 256 token rows, and for each of them 56 tiles of 256 neurons.
  A scratch block of 256 × 4096 numbers carries the running total of the down projection across the 56 neuron
  tiles of one token tile. At a token tile's FIRST neuron tile the step clears the scratch and then adds its
  share, so it leaves `step(0)`; at every later one it leaves `step(previous scratch)`; and at the LAST one it
  also copies the scratch, after the addition, into the output block. Here `step` is the step's one arithmetic
  term `k0_pay2` of the five input blocks and the old total, and `k0_pay1` is the zero block.
-/
import proofs.«136113_j6442450944690_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- First neuron tile of a token tile: the scratch is cleared, read back, and the step's share added. -/
theorem scratch_first (c : Dev nD) (i : grid0.Coords) (a2 : Memref sig .tc .vmem S256x4096 .bf16) (h2 : a2.IsWhole) (a3 : Memref sig .tc .vmem S256x4096 .bf16) (h3 : a3.IsWhole) (a4 : Memref sig .tc .vmem S256x4096 .bf16) (h4 : a4.IsWhole) (a5 : Memref sig .tc .vmem S4096x256 .bf16) (h5 : a5.IsWhole) (a6 : Memref sig .tc .vmem S1x256 .f32) (h6 : a6.IsWhole) (a7 : Memref sig .tc .vmem S256x4096 .f32) (h7 : a7.IsWhole) (a8 : Memref sig .tc .vmem S256x4096 .f32) (h8 : a8.IsWhole) (hc0 : cond0_0 i) (hc1 : ¬cond0_1 i) (x0 : Vec F S256x4096 .bf16) (x1 : Vec F S256x4096 .bf16) (x2 : Vec F S256x4096 .bf16) (x3 : Vec F S4096x256 .bf16) (x4 : Vec F S1x256 .f32) :
    sout0_A_0 c i a2 h2 a3 h3 a4 h4 a5 h5 a6 h6 a7 h7 a8 h8 hc0 hc1 x0 x1 x2 x3 x4 = k0_pay2 x0 x1 x2 x3 x4 (k0_pay1 (F := F)) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S256x4096) hz, View.readCov_unit_zero (S := S256x4096) _ hz]
  simp only [View.readAt_eq_ld, h2.read_unread, h3.read_unread, h4.read_unread, h5.read_unread, h6.read_unread, h8.read_unread, View.ld_unit_zero (S := S256x4096) hz, View.ld_unit_zero (S := S4096x256) hz, View.ld_unit_zero (S := S1x256) hz]

/-- A middle neuron tile: the step's share is added to what the step before left. -/
theorem scratch_middle (c : Dev nD) (i : grid0.Coords) (a2 : Memref sig .tc .vmem S256x4096 .bf16) (h2 : a2.IsWhole) (a3 : Memref sig .tc .vmem S256x4096 .bf16) (h3 : a3.IsWhole) (a4 : Memref sig .tc .vmem S256x4096 .bf16) (h4 : a4.IsWhole) (a5 : Memref sig .tc .vmem S4096x256 .bf16) (h5 : a5.IsWhole) (a6 : Memref sig .tc .vmem S1x256 .f32) (h6 : a6.IsWhole) (a7 : Memref sig .tc .vmem S256x4096 .f32) (h7 : a7.IsWhole) (a8 : Memref sig .tc .vmem S256x4096 .f32) (h8 : a8.IsWhole) (hc0 : ¬cond0_0 i) (hc1 : ¬cond0_1 i) (x0 : Vec F S256x4096 .bf16) (x1 : Vec F S256x4096 .bf16) (x2 : Vec F S256x4096 .bf16) (x3 : Vec F S4096x256 .bf16) (x4 : Vec F S1x256 .f32) (xs0 : Vec F S256x4096 .f32) :
    sout0_B_0 c i a2 h2 a3 h3 a4 h4 a5 h5 a6 h6 a7 h7 a8 h8 hc0 hc1 x0 x1 x2 x3 x4 xs0 = k0_pay2 x0 x1 x2 x3 x4 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero hz]
  simp only [View.readAt_eq_ld, h2.read_unread, h3.read_unread, h4.read_unread, h5.read_unread, h6.read_unread, h8.read_unread, View.ld_unit_zero (S := S256x4096) hz, View.ld_unit_zero (S := S4096x256) hz, View.ld_unit_zero (S := S1x256) hz]

/-- The last neuron tile leaves the same in the scratch … -/
theorem scratch_last (c : Dev nD) (i : grid0.Coords) (a2 : Memref sig .tc .vmem S256x4096 .bf16) (h2 : a2.IsWhole) (a3 : Memref sig .tc .vmem S256x4096 .bf16) (h3 : a3.IsWhole) (a4 : Memref sig .tc .vmem S256x4096 .bf16) (h4 : a4.IsWhole) (a5 : Memref sig .tc .vmem S4096x256 .bf16) (h5 : a5.IsWhole) (a6 : Memref sig .tc .vmem S1x256 .f32) (h6 : a6.IsWhole) (a7 : Memref sig .tc .vmem S256x4096 .f32) (h7 : a7.IsWhole) (a8 : Memref sig .tc .vmem S256x4096 .f32) (h8 : a8.IsWhole) (hc0 : ¬cond0_0 i) (hc1 : cond0_1 i) (x0 : Vec F S256x4096 .bf16) (x1 : Vec F S256x4096 .bf16) (x2 : Vec F S256x4096 .bf16) (x3 : Vec F S4096x256 .bf16) (x4 : Vec F S1x256 .f32) (xs0 : Vec F S256x4096 .f32) :
    sout0_C_0 c i a2 h2 a3 h3 a4 h4 a5 h5 a6 h6 a7 h7 a8 h8 hc0 hc1 x0 x1 x2 x3 x4 xs0 = k0_pay2 x0 x1 x2 x3 x4 xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero hz]
  simp only [View.readAt_eq_ld, h2.read_unread, h3.read_unread, h4.read_unread, h5.read_unread, h6.read_unread, h8.read_unread, View.ld_unit_zero (S := S256x4096) hz, View.ld_unit_zero (S := S4096x256) hz, View.ld_unit_zero (S := S1x256) hz]

/-- … and copies it, read back after the addition, into the output block. -/
theorem output_last (c : Dev nD) (i : grid0.Coords) (a2 : Memref sig .tc .vmem S256x4096 .bf16) (h2 : a2.IsWhole) (a3 : Memref sig .tc .vmem S256x4096 .bf16) (h3 : a3.IsWhole) (a4 : Memref sig .tc .vmem S256x4096 .bf16) (h4 : a4.IsWhole) (a5 : Memref sig .tc .vmem S4096x256 .bf16) (h5 : a5.IsWhole) (a6 : Memref sig .tc .vmem S1x256 .f32) (h6 : a6.IsWhole) (a7 : Memref sig .tc .vmem S256x4096 .f32) (h7 : a7.IsWhole) (a8 : Memref sig .tc .vmem S256x4096 .f32) (h8 : a8.IsWhole) (hc0 : ¬cond0_0 i) (hc1 : cond0_1 i) (x0 : Vec F S256x4096 .bf16) (x1 : Vec F S256x4096 .bf16) (x2 : Vec F S256x4096 .bf16) (x3 : Vec F S4096x256 .bf16) (x4 : Vec F S1x256 .f32) (xs0 : Vec F S256x4096 .f32) :
    out0_C_5 c i a2 h2 a3 h3 a4 h4 a5 h5 a6 h6 a7 h7 a8 h8 hc0 hc1 x0 x1 x2 x3 x4 xs0 = k0_pay2 x0 x1 x2 x3 x4 xs0 := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero hz]
  simp only [View.readCov_unit_zero (S := S256x4096) _ hz, View.readAt_eq_ld, h2.read_unread, h3.read_unread, h4.read_unread, h5.read_unread, h6.read_unread, h8.read_unread, View.ld_unit_zero (S := S256x4096) hz, View.ld_unit_zero (S := S4096x256) hz, View.ld_unit_zero (S := S1x256) hz]

end Cert.KernelIdeal.Acc

end
-- ==== Proof.Fold.lean ====
/-
  The running total across a token tile's 56 neuron tiles, as a fold.

  Number the grid's points `n = 56 a + j` (token tile `a`, neuron tile `j`). What the scratch block holds after
  point `n` restarts at every multiple of 56 — there it is the step applied to the zero block — and at every
  other point is the step applied to what the point before left. So after point `56 a + j` it is the fold of the
  steps of points `56 a … 56 a + j` from zero. At the points `≡ 55 (mod 56)`, the only ones whose output block
  is written back, the output block holds the same as the scratch.
-/
import proofs.«136113_j6442450944690_1_alg».proof.Proof.Pieces

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- Point `n`'s step over an old total: the step's arithmetic at the point's five input blocks. -/
def stepAt (c : Dev nD) (n : ℕ) (h : n < cfg0.N) (acc : Vec F S256x4096 .f32) : Vec F S256x4096 .f32 :=
  k0_pay2 (iblk m c 0 ⟨n, h⟩) (iblk m c 1 ⟨n, h⟩) (iblk m c 2 ⟨n, h⟩) (iblk m c 3 ⟨n, h⟩) (iblk m c 4 ⟨n, h⟩) acc

/-- What the scratch block holds after point `n`. -/
def scratchAt (c : Dev nD) (n : ℕ) (h : n < cfg0.N) : Vec F S256x4096 .f32 := (outsAt0 m c n h).2

/-- At a token tile's first neuron tile the total restarts from the zero block. -/
theorem scratchAt_restart (c : Dev nD) (n : ℕ) (h : n < cfg0.N) (h0 : n % 56 = 0) :
    scratchAt m c n h = stepAt m c n h (k0_pay1 (F := F)) := by
  have h1 : ¬(⟨n, h⟩ : Fin cfg0.N).val % 56 = 55 := by dsimp only; omega
  unfold scratchAt stepAt
  rw [outsAt0_A m c ⟨n, h⟩ h0 h1]
  dsimp only
  exact scratch_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩)

/-- At every other point the step is applied to what the point before left. -/
theorem scratchAt_step (c : Dev nD) (n : ℕ) (h : n + 1 < cfg0.N) (h0 : ¬(n + 1) % 56 = 0) :
    scratchAt m c (n + 1) h = stepAt m c (n + 1) h (scratchAt m c n (Nat.lt_of_succ_lt h)) := by
  unfold scratchAt stepAt
  by_cases h1 : (n + 1) % 56 = 55
  · rw [outsAt0_C m c ⟨n + 1, h⟩ h0 h1]
    dsimp only
    exact scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2
  · rw [outsAt0_B m c ⟨n + 1, h⟩ h0 h1]
    dsimp only
    exact scratch_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2

/-- So after point `t` the scratch is the fold of the steps of its token tile's points up to `t`, from zero. -/
theorem scratchAt_eq_fold (c : Dev nD) (t : ℕ) (ht : t < cfg0.N) (h' : 56 * (t / 56) + t % 56 < cfg0.N) :
    scratchAt m c t ht
      = Pipeline.accAt (fun n h => stepAt m c n h (k0_pay1 (F := F))) (fun n h acc => stepAt m c n h acc) (56 * (t / 56)) (t % 56) h' :=
  Pipeline.eq_accAt_of_mod (scratchAt m c) 56 (fun n h => stepAt m c n h (k0_pay1 (F := F))) (fun n h acc => stepAt m c n h acc)
    (fun n h h0 => scratchAt_restart m c n h h0) (fun n h h0 => scratchAt_step m c n h h0) (by decide) t ht h'

/-- At a token tile's last neuron tile the output block holds what the scratch holds. -/
theorem output_eq_scratch (c : Dev nD) (t : Fin cfg0.N) (h1 : t.val % 56 = 55) :
    (outsAt0 m c t.val t.isLt).1 = scratchAt m c t.val t.isLt := by
  have h0 : ¬t.val % 56 = 0 := by omega
  unfold scratchAt
  rw [outsAt0_C m c t h0 h1]
  dsimp only
  exact (output_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (iblk m c 4 t) _).trans
    (scratch_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (iblk m c 4 t) _).symm

end Cert.KernelIdeal.Acc

end
-- ==== Proof.Spec.lean ====
/-
  The gated feed-forward layer as ONE function of its five arrays over the extended reals.

  For a token row `r` and a neuron `i` let `u = ∑ₖ X r k · Wu i k` (the up projection) and
  `g = ∑ₖ X r k · Wg i k` (the gate projection). The threshold mask is `1` where `|u · Ag i| ≥ 1/2` and `0`
  elsewhere; the gated value is `silu (g · mask) · (u · mask)` with `silu y = y · logistic y`; and the layer's
  output at `(r, h)` is the down projection `∑ᵢ gated r i · Wd h i` over all 14336 neurons.

  A kernel that walks the neuron axis in 56 tiles of 256 adds one tile's share of that sum at a time:
  `tileShare j` is what tile `j` adds.
-/
import Idealize.ShloMosaic.PureOps.Ideal
import Idealize.ShloMosaic.PureOps.Ideal.Laws
import Idealize.ShloMosaic.Lib.ValueIdx

noncomputable section

open scoped BigOperators

namespace Cert.GatedMlp

open Idealize.ShloMosaic

/-- The threshold `1/2`, as the float word both programs write. -/
def half : EReal := Ideal.ofBits .f32 0x3F000000#32

/-- The threshold test `|u · a| ≥ 1/2` as one bit. -/
def testBit (u a : EReal) : BitVec 1 :=
  FloatOps.cmpf (F := Ideal) (φ := .f32) .oge (FloatOps.absf (F := Ideal) (φ := .f32) (u * a)) half

/-- The threshold mask: that bit as the number `0` or `1`. -/
def mask (u a : EReal) : EReal := FloatOps.uitofp (F := Ideal) .f32 (testBit u a)

/-- `silu y = y · logistic y`. -/
def silu (y : EReal) : EReal := y * Ideal.logistic y

/-- One neuron's gated value from its up projection `u`, gate projection `g` and average gate `a`. -/
def gated (u g a : EReal) : EReal := silu (g * mask u a) * (u * mask u a)

variable (X : Fin 8192 → Fin 4096 → EReal) (Wg Wu : Fin 14336 → Fin 4096 → EReal)
  (Wd : Fin 4096 → Fin 14336 → EReal) (Ag : Fin 14336 → EReal)

/-- The up projection of token row `r` at neuron `i`. -/
def up (r : Fin 8192) (i : Fin 14336) : EReal := ∑ k : Fin 4096, X r k * Wu i k

/-- The gate projection of token row `r` at neuron `i`. -/
def gatePre (r : Fin 8192) (i : Fin 14336) : EReal := ∑ k : Fin 4096, X r k * Wg i k

/-- The gated value of token row `r` at neuron `i`. -/
def tv (r : Fin 8192) (i : Fin 14336) : EReal := gated (up X Wu r i) (gatePre X Wg r i) (Ag i)

/-- The layer's output at token row `r` and hidden column `h`: the down projection of the gated values. -/
def out (r : Fin 8192) (h : Fin 4096) : EReal := ∑ i : Fin 14336, tv X Wg Wu Ag r i * Wd h i

/-- Neuron `256 j + k`: position `k` of tile `j` of the neuron axis. -/
def neuron (j : Fin 56) (k : Fin 256) : Fin 14336 := ⟨256 * j.val + k.val, by omega⟩

/-- Token row `256 a + p`: position `p` of tile `a` of the token axis. -/
def tokenRow (a : Fin 32) (p : Fin 256) : Fin 8192 := ⟨256 * a.val + p.val, by omega⟩

/-- What neuron tile `j` adds to the output at `(r, h)`. -/
def tileShare (j : Fin 56) (r : Fin 8192) (h : Fin 4096) : EReal :=
  ∑ k : Fin 256, tv X Wg Wu Ag r (neuron j k) * Wd h (neuron j k)

/-- Token row `2048 b + s`: sequence position `s` of batch entry `b`, in the flattened token axis. -/
def rowOf (b : Fin 4) (s : Fin 2048) : Fin 8192 := ⟨2048 * b.val + s.val, by omega⟩

/-- The activations with batch and sequence axes flattened into one token axis, row-major. -/
def flatX (x : Fin 4 → Fin 2048 → Fin 4096 → EReal) : Fin 8192 → Fin 4096 → EReal :=
  fun r k => x ⟨r.val / 2048, by omega⟩ ⟨r.val % 2048, Nat.mod_lt _ (by decide)⟩ k

end Cert.GatedMlp

namespace Cert.GatedMlp

open Idealize.ShloMosaic Idealize.ShloMosaic.ValueIdx

/-- THE LAYER as one function of the five argument arrays, index by index: at `(b, s, h)` the down projection
    `out` of token row `2048 b + s` at hidden column `h`. Both programs' results are this function. -/
def result (x : (⟨3, ![4, 2048, 4096]⟩ : Shape).Idx → EReal) (wg wu : (⟨2, ![14336, 4096]⟩ : Shape).Idx → EReal)
    (wd : (⟨2, ![4096, 14336]⟩ : Shape).Idx → EReal) (ag : (⟨1, ![14336]⟩ : Shape).Idx → EReal) :
    (⟨3, ![4, 2048, 4096]⟩ : Shape).Idx → EReal :=
  fun i => out (flatX fun b s k => x (ix3 b s k)) (fun n k => wg (ix2 n k)) (fun n k => wu (ix2 n k))
    (fun h n => wd (ix2 h n)) (fun n => ag (ix1 n)) (rowOf (i 0) (i 1)) (i 2)

end Cert.GatedMlp

end
-- ==== Proof.SpecLaws.lean ====
/-
  Laws of the gated feed-forward layer's specification (Spec.lean), all over the extended reals.

  * The kernel writes the threshold mask by widening the comparison bit to 32 bits and converting it as a signed
    integer; the reference converts the bit itself as an unsigned one. A bit is `0` or `1` either way.
  * The reference spells `silu y` as `y · (1 / (1 + e^(-y)))` with the float word of `1`; that quotient is the logistic.
  * The sum over the 14336 neurons is the sum over 56 tiles of the sum over a tile's 256 neurons (addition of
    extended reals is commutative and associative, so no finiteness is needed): the layer's output is the sum
    of the 56 tiles' shares.
-/
import proofs.«136113_j6442450944690_1_alg».proof.Proof.Spec

noncomputable section

open scoped BigOperators

namespace Cert.GatedMlp

open Idealize.ShloMosaic

/-- A one-bit word is `0` or `1`; widened to 32 bits its top bit is clear, so its signed reading is its
    unsigned one. -/
private theorem toInt_widened_bit (b : BitVec 1) : (b.setWidth 32).toInt = (b.toNat : ℤ) := by
  by_cases h : b = 1#1
  · subst h; decide
  · rw [ValueIdx.eq_zero_of_ne_one h]; decide

/-- A comparison bit widened to 32 bits and read signed is the bit read unsigned. -/
theorem signed_widened_bit (b : BitVec 1) :
    FloatOps.sitofp (F := Ideal) .f32 (b.setWidth 32) = FloatOps.uitofp (F := Ideal) .f32 b := by
  show ((((b.setWidth 32).toInt : ℤ) : ℝ) : EReal) = (((b.toNat : ℕ) : ℝ) : EReal)
  rw [toInt_widened_bit b, Int.cast_natCast]

/-- The float word `0x3F800000` is the number one. -/
theorem one_word : Ideal.ofBits .f32 0x3F800000#32 = 1 :=
  IdealRules.sign_bit.ideal_onePat .f32

/-- `y · (1 / (1 + e^(-y)))`, the reference's spelling, is `silu y`. -/
theorem silu_spelled (y : EReal) :
    y * Ideal.div (Ideal.ofBits .f32 0x3F800000#32) (Ideal.ofBits .f32 0x3F800000#32 + Ideal.exp (-y)) = silu y := by
  -- with the word read as `1` the quotient is `1 / (1 + e^(-y))`, which is the logistic by definition
  rw [one_word]
  rfl

variable (X : Fin 8192 → Fin 4096 → EReal) (Wg Wu : Fin 14336 → Fin 4096 → EReal)
  (Wd : Fin 4096 → Fin 14336 → EReal) (Ag : Fin 14336 → EReal)

/-- A sum over the neuron axis is the sum over its 56 tiles of the sums over each tile's 256 positions. -/
theorem sum_neurons (f : Fin 14336 → EReal) : ∑ i : Fin 14336, f i = ∑ j : Fin 56, ∑ k : Fin 256, f (neuron j k) := by
  -- the pair `(j, k)` ↦ `k + 256 j` is a bijection of `Fin 56 × Fin 256` onto `Fin 14336`: re-index along it,
  -- then split the sum over pairs into the iterated sum
  rw [← Equiv.sum_comp (finProdFinEquiv (m := 56) (n := 256) : Fin 56 × Fin 256 ≃ Fin 14336) f,
    Fintype.sum_prod_type]
  refine Finset.sum_congr rfl fun j _ => Finset.sum_congr rfl fun k _ => ?_
  refine congrArg f (Fin.ext ?_)
  simp only [neuron, finProdFinEquiv_apply_val]
  omega

/-- The layer's output is the sum of the 56 neuron tiles' shares. -/
theorem out_eq_sum_tiles (r : Fin 8192) (h : Fin 4096) :
    out X Wg Wu Wd Ag r h = ∑ j : Fin 56, tileShare X Wg Wu Wd Ag j r h := by
  unfold out tileShare
  exact sum_neurons fun i => tv X Wg Wu Ag r i * Wd h i

end Cert.GatedMlp

end
-- ==== Proof.Step.lean ====
/-
  One grid step's arithmetic, read at one element over the extended reals.

  A step holds a 256-row tile of the activations `x`, a 256-neuron tile of the gate and up weights `wg`, `wu`
  (one row per neuron), the matching 256 columns of the down weights `wd` and of the average gates `ag`, and the
  running total `acc`. It leaves `acc + tv · wdᵀ`: at row `p` and hidden column `q`, the old total plus the sum
  over the tile's 256 neurons `k` of the gated value of `(p, k)` times `wd q k`, the gated value built from the two
  projections `∑ₕ x p h · wu k h` and `∑ₕ x p h · wg k h`. Changes of float format are the identity here, and a
  matrix product into a zero accumulator is the plain sum of products.
-/
import proofs.«136113_j6442450944690_1_alg».proof.Proof.Gen.KernelIdeal.Skeleton
import proofs.«136113_j6442450944690_1_alg».proof.Proof.SpecLaws
import Idealize.ShloMosaic.Lib.ValueIdx
import Idealize.ShloMosaic.Lib.Pipeline.Value
import Idealize.ShloMosaic.PureOps.Ideal.Laws

noncomputable section

open scoped BigOperators

namespace Cert.KernelIdeal.Step

open Cert.KernelIdeal Cert.KernelIdeal.Gen Idealize.ShloMosaic Idealize.ShloMosaic.TcCoe Idealize.ShloMosaic.ValueIdx

theorem lhs_proj_0 (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem lhs_proj_1 (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q
theorem rhs_proj_0 (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem rhs_proj_1 (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q

theorem lhs_down_0 (i : S256x4096.Idx) (q : dot_S256x256_S4096x256_S256x4096_1_1_0_0_n_n.contr.Idx) :
    (dot_S256x256_S4096x256_S256x4096_1_1_0_0_n_n.lhsIdx i q 0).val = (i 0).val := by
  unfold DotDims.lhsIdx
  rw [dif_neg (show ¬(0 : Fin S256x256.rank) ∈ dot_S256x256_S4096x256_S256x4096_1_1_0_0_n_n.lhsBatch by decide), dif_pos (show (0 : Fin S256x256.rank) ∈ dot_S256x256_S4096x256_S256x4096_1_1_0_0_n_n.lhsNonContracting by decide)]
  rfl
theorem lhs_down_1 (i : S256x4096.Idx) (q : dot_S256x256_S4096x256_S256x4096_1_1_0_0_n_n.contr.Idx) :
    (dot_S256x256_S4096x256_S256x4096_1_1_0_0_n_n.lhsIdx i q 1).val = (q ⟨0, by decide⟩).val :=
  dot_S256x256_S4096x256_S256x4096_1_1_0_0_n_n.lhsIdx_val_of_single rfl i q
theorem rhs_down_0 (i : S256x4096.Idx) (q : dot_S256x256_S4096x256_S256x4096_1_1_0_0_n_n.contr.Idx) :
    (dot_S256x256_S4096x256_S256x4096_1_1_0_0_n_n.rhsIdx i q 0).val = (i 1).val := by
  unfold DotDims.rhsIdx
  rw [dif_neg (show ¬(0 : Fin S4096x256.rank) ∈ dot_S256x256_S4096x256_S256x4096_1_1_0_0_n_n.rhsBatch by decide), dif_pos (show (0 : Fin S4096x256.rank) ∈ dot_S256x256_S4096x256_S256x4096_1_1_0_0_n_n.rhsNonContracting by decide)]
  rfl
theorem rhs_down_1 (i : S256x4096.Idx) (q : dot_S256x256_S4096x256_S256x4096_1_1_0_0_n_n.contr.Idx) :
    (dot_S256x256_S4096x256_S256x4096_1_1_0_0_n_n.rhsIdx i q 1).val = (q ⟨0, by decide⟩).val :=
  dot_S256x256_S4096x256_S256x4096_1_1_0_0_n_n.rhsIdx_val_of_single rfl i q

/-- A projection of the tile: rows of `A` against rows of `B`, contracted over the 4096 hidden columns. -/
theorem proj_apply (A : FVec Ideal S256x4096 .bf16) (B : FVec Ideal S256x4096 .bf16) (p : Fin 256) (q : Fin 256) :
    matmul dot_S256x4096_S256x4096_S256x256_1_1_0_0_n_n none A B (constant S256x256 .f32 0x00000000#32) (ix2 p q)
      = ∑ k : Fin 4096, A (ix2 p k) * B (ix2 q k) := by
  simp only [matmul]
  rw [Ideal.matmul_constant_zero_apply, ← Equiv.sum_comp (ValueIdx.contrEquiv1 dot_S256x4096_S256x4096_S256x256_1_1_0_0_n_n 4096 rfl rfl).symm]
  refine Finset.sum_congr rfl fun k _ => ?_
  have hk := ValueIdx.contrEquiv1_symm_val dot_S256x4096_S256x4096_S256x256_1_1_0_0_n_n 4096 rfl rfl k
  have el : dot_S256x4096_S256x4096_S256x256_1_1_0_0_n_n.lhsIdx (ix2 p q) ((ValueIdx.contrEquiv1 dot_S256x4096_S256x4096_S256x256_1_1_0_0_n_n 4096 rfl rfl).symm k) = ix2 p k := funext fun a => Fin.ext (by
    match a with
    | ⟨0, _⟩ => exact lhs_proj_0 _ _
    | ⟨1, _⟩ => exact (lhs_proj_1 _ _).trans hk)
  have er : dot_S256x4096_S256x4096_S256x256_1_1_0_0_n_n.rhsIdx (ix2 p q) ((ValueIdx.contrEquiv1 dot_S256x4096_S256x4096_S256x256_1_1_0_0_n_n 4096 rfl rfl).symm k) = ix2 q k := funext fun a => Fin.ext (by
    match a with
    | ⟨0, _⟩ => exact rhs_proj_0 _ _
    | ⟨1, _⟩ => exact (rhs_proj_1 _ _).trans hk)
  rw [el, er]

/-- The down projection of the tile: rows of `A` against rows of `B`, contracted over the tile's 256 neurons. -/
theorem down_apply (A : FVec Ideal S256x256 .bf16) (B : FVec Ideal S4096x256 .bf16) (p : Fin 256) (q : Fin 4096) :
    matmul dot_S256x256_S4096x256_S256x4096_1_1_0_0_n_n none A B (constant S256x4096 .f32 0x00000000#32) (ix2 p q)
      = ∑ k : Fin 256, A (ix2 p k) * B (ix2 q k) := by
  simp only [matmul]
  rw [Ideal.matmul_constant_zero_apply, ← Equiv.sum_comp (ValueIdx.contrEquiv1 dot_S256x256_S4096x256_S256x4096_1_1_0_0_n_n 256 rfl rfl).symm]
  refine Finset.sum_congr rfl fun k _ => ?_
  have hk := ValueIdx.contrEquiv1_symm_val dot_S256x256_S4096x256_S256x4096_1_1_0_0_n_n 256 rfl rfl k
  have el : dot_S256x256_S4096x256_S256x4096_1_1_0_0_n_n.lhsIdx (ix2 p q) ((ValueIdx.contrEquiv1 dot_S256x256_S4096x256_S256x4096_1_1_0_0_n_n 256 rfl rfl).symm k) = ix2 p k := funext fun a => Fin.ext (by
    match a with
    | ⟨0, _⟩ => exact lhs_down_0 _ _
    | ⟨1, _⟩ => exact (lhs_down_1 _ _).trans hk)
  have er : dot_S256x256_S4096x256_S256x4096_1_1_0_0_n_n.rhsIdx (ix2 p q) ((ValueIdx.contrEquiv1 dot_S256x256_S4096x256_S256x4096_1_1_0_0_n_n 256 rfl rfl).symm k) = ix2 q k := funext fun a => Fin.ext (by
    match a with
    | ⟨0, _⟩ => exact rhs_down_0 _ _
    | ⟨1, _⟩ => exact (rhs_down_1 _ _).trans hk)
  rw [el, er]

/-- The average gates' one row, broadcast down the tile's 256 rows, reads column `k` of that row. -/
theorem gates_apply (ag : FVec Ideal S1x256 .f32) (p k : Fin 256) :
    broadcastTo S256x256 ag broadcasts_S1x256_S256x256 (ix2 p k) = ag (ix2 (0 : Fin 1) k) :=
  broadcastTo_apply ag broadcasts_S1x256_S256x256 (ix2 p k) (ix2 (0 : Fin 1) k) (fun a => match a with
    | ⟨0, _⟩ => by show 0 = if (1 : Nat) = 1 then 0 else _; rw [if_pos rfl]
    | ⟨1, _⟩ => by show k.val = if (256 : Nat) = 1 then 0 else k.val; rw [if_neg (by decide)])

theorem logistic_apply {s : Shape} {φ : FTy} (a : FVec Ideal s φ) (i : s.Idx) : logistic a i = Ideal.logistic (a i) := rfl
theorem absf_apply {s : Shape} {φ : FTy} (a : FVec Ideal s φ) (i : s.Idx) : absf a i = FloatOps.absf (a i) := rfl

/-- THE STEP at `(p, q)`: the old total plus the tile's share of the down projection. -/
theorem step_apply (x wg wu : Vec Ideal S256x4096 .bf16) (wd : Vec Ideal S4096x256 .bf16) (ag : Vec Ideal S1x256 .f32)
    (acc : Vec Ideal S256x4096 .f32) (p : Fin 256) (q : Fin 4096) :
    k0_pay2 (F := Ideal) x wg wu wd ag acc (ix2 p q)
      = acc (ix2 p q) + ∑ k : Fin 256,
          Cert.GatedMlp.gated (∑ h : Fin 4096, x (ix2 p h) * wu (ix2 k h)) (∑ h : Fin 4096, x (ix2 p h) * wg (ix2 k h))
            (ag (ix2 (0 : Fin 1) k)) * wd (ix2 q k) := by
  unfold k0_pay2
  simp only [shapeCast_self]
  rw [addf_apply, down_apply]
  refine congrArg (acc (ix2 p q) + ·) (Finset.sum_congr rfl fun k _ => ?_)
  rw [truncf_apply]
  simp only [mulf_apply, logistic_apply, sitofp_apply, extui_apply, cmpf_apply, absf_apply, broadcast_apply, proj_apply,
    gates_apply]
  rw [Cert.GatedMlp.signed_widened_bit]
  rfl

end Cert.KernelIdeal.Step

end
-- ==== Proof.Blocks.lean ====
/-
  The kernel's five input blocks at a grid point, read at an index, as entries of the arrays the region finds.

  The grid is 32 × 56: point `t = 56 a + j` works on token tile `a = t / 56` and neuron tile `j = t % 56`.
  The activations are staged in row blocks of 256 tokens at block index `(a, 0)`; the gate and up weights in row
  blocks of 256 neurons at `(j, 0)`; the down weights in column blocks of 256 neurons at `(0, j)`; the average
  gates in column blocks of 256 neurons at `(0, j)`. A block's coordinate in its array is always
  `block index × block size + coordinate inside the block`, so position `p` of token tile `a` is token row
  `256 a + p` and position `n` of neuron tile `j` is neuron `256 j + n`.
-/
import proofs.«136113_j6442450944690_1_alg».proof.Proof.Gen.KernelIdeal.Frame
import proofs.«136113_j6442450944690_1_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
  Idealize.ShloMosaic.ValueIdx

variable {F : FTy → Type} [FloatOps F] (m : (ℓ : Loc nD τ sig) → Buf (Elt F) ℓ)

/-! ## The index maps in closed form, decided once over the grid's 1792 points -/

/-- The activations' block index at point `t` is `(t / 56, 0)`. -/
theorem idx0 : ∀ t : Fin cfg0.N, win0_0.index t (0 : Fin 2) = t.val / 56 ∧ win0_0.index t (1 : Fin 2) = 0 :=
  (by decide +kernel : ∀ t : Fin grid0.N, _)
/-- The gate weights' block index at point `t` is `(t % 56, 0)`. -/
theorem idx1 : ∀ t : Fin cfg0.N, win0_1.index t (0 : Fin 2) = t.val % 56 ∧ win0_1.index t (1 : Fin 2) = 0 :=
  (by decide +kernel : ∀ t : Fin grid0.N, _)
/-- The up weights' block index at point `t` is `(t % 56, 0)`. -/
theorem idx2 : ∀ t : Fin cfg0.N, win0_2.index t (0 : Fin 2) = t.val % 56 ∧ win0_2.index t (1 : Fin 2) = 0 :=
  (by decide +kernel : ∀ t : Fin grid0.N, _)
/-- The down weights' block index at point `t` is `(0, t % 56)`. -/
theorem idx3 : ∀ t : Fin cfg0.N, win0_3.index t (0 : Fin 2) = 0 ∧ win0_3.index t (1 : Fin 2) = t.val % 56 :=
  (by decide +kernel : ∀ t : Fin grid0.N, _)
/-- The average gates' block index at point `t` is `(0, t % 56)`. -/
theorem idx4 : ∀ t : Fin cfg0.N, win0_4.index t (0 : Fin 2) = 0 ∧ win0_4.index t (1 : Fin 2) = t.val % 56 :=
  (by decide +kernel : ∀ t : Fin grid0.N, _)

/-! ## The blocks -/

/-- The activations' block at point `t`: position `p` of token tile `t / 56` is token row `256 (t / 56) + p`. -/
theorem acts_block (c : Dev nD) (t : Fin cfg0.N) (ha : t.val / 56 < 32) (p : Fin 256) (k : Fin 4096) :
    (iblk m c 0 t : Vec F S256x4096 .bf16) (ix2 p k)
      = V m c main_v1 (ix2 (Cert.GatedMlp.tokenRow (⟨t.val / 56, ha⟩ : Fin 32) p) k) := by
  unfold iblk
  rw [View.read_apply]
  show V m c main_v1 _ = V m c main_v1 _
  congr 1
  funext a
  apply Fin.ext
  match a with
  | ⟨0, _⟩ =>
    show win0_0.index t (0 : Fin 2) * 256 + 1 * p.val = 256 * (t.val / 56) + p.val
    rw [(idx0 t).1]; omega
  | ⟨1, _⟩ =>
    show win0_0.index t (1 : Fin 2) * 4096 + 1 * k.val = k.val
    rw [(idx0 t).2]; omega

/-- The gate weights' block at point `t`: position `n` of neuron tile `t % 56` is neuron `256 (t % 56) + n`. -/
theorem wgate_block (c : Dev nD) (t : Fin cfg0.N) (n : Fin 256) (k : Fin 4096) :
    (iblk m c 1 t : Vec F S256x4096 .bf16) (ix2 n k)
      = V m c main_v2 (ix2 (Cert.GatedMlp.neuron (⟨t.val % 56, Nat.mod_lt _ (by decide)⟩ : Fin 56) n) k) := by
  unfold iblk
  rw [View.read_apply]
  show V m c main_v2 _ = V m c main_v2 _
  congr 1
  funext a
  apply Fin.ext
  match a with
  | ⟨0, _⟩ =>
    show win0_1.index t (0 : Fin 2) * 256 + 1 * n.val = 256 * (t.val % 56) + n.val
    rw [(idx1 t).1]; omega
  | ⟨1, _⟩ =>
    show win0_1.index t (1 : Fin 2) * 4096 + 1 * k.val = k.val
    rw [(idx1 t).2]; omega

/-- The up weights' block at point `t`: position `n` of neuron tile `t % 56` is neuron `256 (t % 56) + n`. -/
theorem wup_block (c : Dev nD) (t : Fin cfg0.N) (n : Fin 256) (k : Fin 4096) :
    (iblk m c 2 t : Vec F S256x4096 .bf16) (ix2 n k)
      = V m c main_v3 (ix2 (Cert.GatedMlp.neuron (⟨t.val % 56, Nat.mod_lt _ (by decide)⟩ : Fin 56) n) k) := by
  unfold iblk
  rw [View.read_apply]
  show V m c main_v3 _ = V m c main_v3 _
  congr 1
  funext a
  apply Fin.ext
  match a with
  | ⟨0, _⟩ =>
    show win0_2.index t (0 : Fin 2) * 256 + 1 * n.val = 256 * (t.val % 56) + n.val
    rw [(idx2 t).1]; omega
  | ⟨1, _⟩ =>
    show win0_2.index t (1 : Fin 2) * 4096 + 1 * k.val = k.val
    rw [(idx2 t).2]; omega

/-- The down weights' block at point `t`: column `n` of neuron tile `t % 56` is neuron `256 (t % 56) + n`. -/
theorem wdown_block (c : Dev nD) (t : Fin cfg0.N) (q : Fin 4096) (n : Fin 256) :
    (iblk m c 3 t : Vec F S4096x256 .bf16) (ix2 q n)
      = V m c main_v4 (ix2 q (Cert.GatedMlp.neuron (⟨t.val % 56, Nat.mod_lt _ (by decide)⟩ : Fin 56) n)) := by
  unfold iblk
  rw [View.read_apply]
  show V m c main_v4 _ = V m c main_v4 _
  congr 1
  funext a
  apply Fin.ext
  match a with
  | ⟨0, _⟩ =>
    show win0_3.index t (0 : Fin 2) * 4096 + 1 * q.val = q.val
    rw [(idx3 t).1]; omega
  | ⟨1, _⟩ =>
    show win0_3.index t (1 : Fin 2) * 256 + 1 * n.val = 256 * (t.val % 56) + n.val
    rw [(idx3 t).2]; omega

/-- The average gates' block at point `t`: column `n` of neuron tile `t % 56` is neuron `256 (t % 56) + n`. -/
theorem gates_block (c : Dev nD) (t : Fin cfg0.N) (n : Fin 256) :
    (iblk m c 4 t : Vec F S1x256 .f32) (ix2 (0 : Fin 1) n)
      = V m c main_v5 (ix2 (0 : Fin 1) (Cert.GatedMlp.neuron (⟨t.val % 56, Nat.mod_lt _ (by decide)⟩ : Fin 56) n)) := by
  unfold iblk
  rw [View.read_apply]
  show V m c main_v5 _ = V m c main_v5 _
  congr 1
  funext a
  apply Fin.ext
  match a with
  | ⟨0, _⟩ =>
    show win0_4.index t (0 : Fin 2) * 1 + 1 * (0 : Fin 1).val = (0 : Fin 1).val
    rw [(idx4 t).1]; omega
  | ⟨1, _⟩ =>
    show win0_4.index t (1 : Fin 2) * 256 + 1 * n.val = 256 * (t.val % 56) + n.val
    rw [(idx4 t).2]; omega

end Cert.KernelIdeal.Blocks

end
-- ==== Proof.Arrays.lean ====
/-
  The five arrays the kernel's call finds when it starts, over the extended reals, read at an index.

  Before the call the program flattens the activations' batch and sequence axes into one token axis (a reshape of
  `[4, 2048, 4096]` to `[8192, 4096]`, row-major: token row `r` is batch entry `r / 2048` at sequence position
  `r % 2048`), narrows the activations and the three weight arrays to a sixteen-bit format (over the extended reals
  a format change is the identity), and gives the average gate a leading unit axis (a reshape of `[14336]` to
  `[1, 14336]`). So each of the five arrays, at an index, is the program's argument array at the corresponding index.
-/
import proofs.«136113_j6442450944690_1_alg».proof.Proof.Gen.KernelIdeal.Frame
import proofs.«136113_j6442450944690_1_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Arrays

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The whole arrays as the host operations' terms -/

/-- The flattened, narrowed activations. -/
theorem acts_eq (c : Dev nD) :
    @Eq (FVec Ideal S8192x4096 .bf16) (V m c main_v1)
      (truncf (F := Ideal) .bf16
        (shapeCast S8192x4096 (show FVec Ideal S4x2048x4096 .f32 from m ((c : Thread nD τ).loc main_arg0))
          Gen.shapeCasts_S4x2048x4096_S8192x4096)
        Gen.bitsLt_bf16_f32) := by
  show StableHlo.after hostOps0 (fun b => m (c, b)) (Proc.devRef .tc main_v1) = _
  after_results
  rfl

/-- The narrowed gate weights. -/
theorem wgate_eq (c : Dev nD) :
    @Eq (FVec Ideal S14336x4096 .bf16) (V m c main_v2)
      (truncf (F := Ideal) .bf16 (show FVec Ideal S14336x4096 .f32 from m ((c : Thread nD τ).loc main_arg1))
        Gen.bitsLt_bf16_f32) := by
  show StableHlo.after hostOps0 (fun b => m (c, b)) (Proc.devRef .tc main_v2) = _
  after_results

/-- The narrowed up weights. -/
theorem wup_eq (c : Dev nD) :
    @Eq (FVec Ideal S14336x4096 .bf16) (V m c main_v3)
      (truncf (F := Ideal) .bf16 (show FVec Ideal S14336x4096 .f32 from m ((c : Thread nD τ).loc main_arg2))
        Gen.bitsLt_bf16_f32) := by
  show StableHlo.after hostOps0 (fun b => m (c, b)) (Proc.devRef .tc main_v3) = _
  after_results

/-- The narrowed down weights. -/
theorem wdown_eq (c : Dev nD) :
    @Eq (FVec Ideal S4096x14336 .bf16) (V m c main_v4)
      (truncf (F := Ideal) .bf16 (show FVec Ideal S4096x14336 .f32 from m ((c : Thread nD τ).loc main_arg3))
        Gen.bitsLt_bf16_f32) := by
  show StableHlo.after hostOps0 (fun b => m (c, b)) (Proc.devRef .tc main_v4) = _
  after_results

/-- The average gate with its leading unit axis. -/
theorem gates_eq (c : Dev nD) :
    @Eq (FVec Ideal S1x14336 .f32) (V m c main_v5)
      (shapeCast S1x14336 (show FVec Ideal S14336 .f32 from m ((c : Thread nD τ).loc main_arg4))
        Gen.shapeCasts_S14336_S1x14336) := by
  show StableHlo.after hostOps0 (fun b => m (c, b)) (Proc.devRef .tc main_v5) = _
  after_results
  rfl

/-! ## The arrays at an index -/

/-- Token row `r` of the flattened activations is the activations' row `(r / 2048, r % 2048)`. -/
theorem acts_apply (c : Dev nD) (r : Fin 8192) (k : Fin 4096) :
    V m c main_v1 (ix2 r k) = m ((c : Thread nD τ).loc main_arg0)
      (ix3 (⟨r.val / 2048, by omega⟩ : Fin 4) (⟨r.val % 2048, Nat.mod_lt _ (by decide)⟩ : Fin 2048) k) := by
  refine (congrFun (acts_eq m c) (ix2 r k)).trans ?_
  rw [truncf_apply]
  refine shapeCast_apply _ _ _ _ ?_
  rw [Shape.rowMajor_val_three, Shape.rowMajor_val_two]
  show (r.val / 2048 * 2048 + r.val % 2048) * 4096 + k.val = r.val * 4096 + k.val
  omega

/-- The gate weights are the program's second argument. -/
theorem wgate_apply (c : Dev nD) (n : Fin 14336) (k : Fin 4096) :
    V m c main_v2 (ix2 n k) = m ((c : Thread nD τ).loc main_arg1) (ix2 n k) :=
  congrFun (wgate_eq m c) (ix2 n k)

/-- The up weights are the program's third argument. -/
theorem wup_apply (c : Dev nD) (n : Fin 14336) (k : Fin 4096) :
    V m c main_v3 (ix2 n k) = m ((c : Thread nD τ).loc main_arg2) (ix2 n k) :=
  congrFun (wup_eq m c) (ix2 n k)

/-- The down weights are the program's fourth argument. -/
theorem wdown_apply (c : Dev nD) (h : Fin 4096) (n : Fin 14336) :
    V m c main_v4 (ix2 h n) = m ((c : Thread nD τ).loc main_arg3) (ix2 h n) :=
  congrFun (wdown_eq m c) (ix2 h n)

/-- The average gate's one row is the program's fifth argument. -/
theorem gates_apply (c : Dev nD) (n : Fin 14336) :
    V m c main_v5 (ix2 (0 : Fin 1) n) = m ((c : Thread nD τ).loc main_arg4) (ix1 n) := by
  refine (congrFun (gates_eq m c) (ix2 (0 : Fin 1) n)).trans ?_
  refine shapeCast_apply _ _ _ _ ?_
  rw [Shape.rowMajor_val_one, Shape.rowMajor_val_two]
  show n.val = 0 * 14336 + n.val
  omega

end Cert.KernelIdeal.Arrays

end
-- ==== Proof.Total.lean ====
/-
  The running total at the end of a token tile, over the extended reals.

  Read at row `p` and hidden column `q`, one step adds to the old total the share of its neuron tile: the sum over
  the tile's 256 neurons of the gated value times the down weight, the blocks being the rows `256 a + p` of the
  activations and the neurons `256 j + k` of the weights. The scratch restarts from the zero block, whose entries
  are the number zero. So after the last of a token tile's 56 steps it holds `0 + ∑ⱼ share j`, and the sum of the
  56 tiles' shares is the layer's output at token row `256 a + p` and column `q`: addition of extended reals is
  commutative and associative, so the grouping of the 14336 terms into tiles does not matter.
-/
import proofs.«136113_j6442450944690_1_alg».proof.Proof.Fold
import proofs.«136113_j6442450944690_1_alg».proof.Proof.Step
import proofs.«136113_j6442450944690_1_alg».proof.Proof.Blocks
import proofs.«136113_j6442450944690_1_alg».proof.Proof.Arrays
import proofs.«136113_j6442450944690_1_alg».proof.Proof.SpecLaws

noncomputable section

open scoped BigOperators

namespace Cert.KernelIdeal.Total

open Cert.KernelIdeal Cert.KernelIdeal.Gen Cert.KernelIdeal.Acc Idealize.ShloMosaic Idealize.ShloMosaic.TcCoe Idealize.SL.Sem
open Idealize.ShloMosaic.ValueIdx Cert.GatedMlp

variable (m : (ℓ : Loc nD τ sig) → Buf (Elt Ideal) ℓ)

/-- The program's five argument arrays as the specification's arguments. -/
abbrev acts (c : Dev nD) : Fin 8192 → Fin 4096 → EReal := flatX fun b s k => m ((c : Thread nD τ).loc main_arg0) (ix3 b s k)
abbrev wgate (c : Dev nD) : Fin 14336 → Fin 4096 → EReal := fun n k => m ((c : Thread nD τ).loc main_arg1) (ix2 n k)
abbrev wup (c : Dev nD) : Fin 14336 → Fin 4096 → EReal := fun n k => m ((c : Thread nD τ).loc main_arg2) (ix2 n k)
abbrev wdown (c : Dev nD) : Fin 4096 → Fin 14336 → EReal := fun h n => m ((c : Thread nD τ).loc main_arg3) (ix2 h n)
abbrev gates (c : Dev nD) : Fin 14336 → EReal := fun n => m ((c : Thread nD τ).loc main_arg4) (ix1 n)

/-- What point `n` adds at row `p` and column `q` of the block: the share of neuron tile `n % 56` at token row
    `256 (n / 56) + p`. (Stated for every natural `n`; only the grid's points are ever used.) -/
def shareAt (c : Dev nD) (n : ℕ) (p : Fin 256) (q : Fin 4096) : EReal :=
  tileShare (acts m c) (wgate m c) (wup m c) (wdown m c) (gates m c) ⟨n % 56, Nat.mod_lt _ (by decide)⟩
    (tokenRow ⟨n / 56 % 32, Nat.mod_lt _ (by decide)⟩ p) q

/-- Point `t`'s five input blocks, each at its literal shape. -/
abbrev xblk (c : Dev nD) (t : Fin cfg0.N) : Vec Ideal S256x4096 .bf16 := iblk m c 0 t
abbrev wgblk (c : Dev nD) (t : Fin cfg0.N) : Vec Ideal S256x4096 .bf16 := iblk m c 1 t
abbrev wublk (c : Dev nD) (t : Fin cfg0.N) : Vec Ideal S256x4096 .bf16 := iblk m c 2 t
abbrev wdblk (c : Dev nD) (t : Fin cfg0.N) : Vec Ideal S4096x256 .bf16 := iblk m c 3 t
abbrev agblk (c : Dev nD) (t : Fin cfg0.N) : Vec Ideal S1x256 .f32 := iblk m c 4 t

/-- The zero block's entries are the number zero. -/
theorem zero_block (i : S256x4096.Idx) : (k0_pay1 (F := Ideal)) i = 0 := by
  unfold k0_pay1
  rw [shapeCast_self]
  exact Ideal.ofBits_zero_f32

/-- One step at an index: the old total plus the point's share. -/
theorem stepAt_apply (c : Dev nD) (n : ℕ) (h : n < cfg0.N) (acc : Vec Ideal S256x4096 .f32) (i : S256x4096.Idx) :
    stepAt m c n h acc i = acc i + shareAt m c n (i 0) (i 1) := by
  have hN : n < 1792 := lt_of_lt_of_eq h (show cfg0.N = 1792 from N_0)
  have ha : (⟨n, h⟩ : Fin cfg0.N).val / 56 < 32 := by dsimp only; omega
  obtain ⟨p, q, rfl⟩ : ∃ (p : Fin 256) (q : Fin 4096), i = ix2 p q := ⟨i 0, i 1, eq_ix2 i⟩
  show stepAt m c n h acc (ix2 p q) = acc (ix2 p q) + shareAt m c n p q
  have eA : (⟨n / 56 % 32, Nat.mod_lt _ (by decide)⟩ : Fin 32) = ⟨n / 56, ha⟩ := Fin.ext (by dsimp only; omega)
  unfold stepAt shareAt
  rw [eA]
  refine (Step.step_apply (xblk m c ⟨n, h⟩) (wgblk m c ⟨n, h⟩) (wublk m c ⟨n, h⟩) (wdblk m c ⟨n, h⟩)
    (agblk m c ⟨n, h⟩) acc p q).trans ?_
  refine congrArg (acc (ix2 p q) + ·) (Finset.sum_congr rfl fun k _ => ?_)
  have hx : ∀ hh : Fin 4096, xblk m c ⟨n, h⟩ (ix2 p hh)
      = acts m c (tokenRow ⟨n / 56, ha⟩ p) hh :=
    fun hh => (Blocks.acts_block m c ⟨n, h⟩ ha p hh).trans (Arrays.acts_apply m c _ hh)
  have hwg : ∀ hh : Fin 4096, wgblk m c ⟨n, h⟩ (ix2 k hh)
      = wgate m c (neuron ⟨n % 56, Nat.mod_lt _ (by decide)⟩ k) hh :=
    fun hh => (Blocks.wgate_block m c ⟨n, h⟩ k hh).trans (Arrays.wgate_apply m c _ hh)
  have hwu : ∀ hh : Fin 4096, wublk m c ⟨n, h⟩ (ix2 k hh)
      = wup m c (neuron ⟨n % 56, Nat.mod_lt _ (by decide)⟩ k) hh :=
    fun hh => (Blocks.wup_block m c ⟨n, h⟩ k hh).trans (Arrays.wup_apply m c _ hh)
  have hwd : wdblk m c ⟨n, h⟩ (ix2 q k)
      = wdown m c q (neuron ⟨n % 56, Nat.mod_lt _ (by decide)⟩ k) :=
    (Blocks.wdown_block m c ⟨n, h⟩ q k).trans (Arrays.wdown_apply m c q _)
  have hag : agblk m c ⟨n, h⟩ (ix2 (0 : Fin 1) k)
      = gates m c (neuron ⟨n % 56, Nat.mod_lt _ (by decide)⟩ k) :=
    (Blocks.gates_block m c ⟨n, h⟩ k).trans (Arrays.gates_apply m c _)
  have e_up : (∑ hh : Fin 4096, xblk m c ⟨n, h⟩ (ix2 p hh)
        * wublk m c ⟨n, h⟩ (ix2 k hh))
      = up (acts m c) (wup m c) (tokenRow ⟨n / 56, ha⟩ p) (neuron ⟨n % 56, Nat.mod_lt _ (by decide)⟩ k) :=
    Finset.sum_congr rfl fun hh _ => by rw [hx hh, hwu hh]
  have e_gate : (∑ hh : Fin 4096, xblk m c ⟨n, h⟩ (ix2 p hh)
        * wgblk m c ⟨n, h⟩ (ix2 k hh))
      = gatePre (acts m c) (wgate m c) (tokenRow ⟨n / 56, ha⟩ p) (neuron ⟨n % 56, Nat.mod_lt _ (by decide)⟩ k) :=
    Finset.sum_congr rfl fun hh _ => by rw [hx hh, hwg hh]
  rw [e_up, e_gate, hag, hwd]
  rfl

/-- After a token tile's last step the scratch holds the layer's output for the tile's rows. -/
theorem total_apply (c : Dev nD) (t : Fin cfg0.N) (h1 : t.val % 56 = 55) (ha : t.val / 56 < 32) (p : Fin 256) (q : Fin 4096) :
    scratchAt m c t.val t.isLt (ix2 p q) = out (acts m c) (wgate m c) (wup m c) (wdown m c) (gates m c) (tokenRow ⟨t.val / 56, ha⟩ p) q := by
  have hN : t.val < 1792 := lt_of_lt_of_eq t.isLt (show cfg0.N = 1792 from N_0)
  have h' : 56 * (t.val / 56) + t.val % 56 < cfg0.N := by rw [Nat.div_add_mod]; exact t.isLt
  have hfold := Pipeline.accAt_add_apply (fun n h => stepAt m c n h (k0_pay1 (F := Ideal)))
    (fun n h acc => stepAt m c n h acc) (fun _ => (0 : EReal)) (fun n (i : S256x4096.Idx) => shareAt m c n (i 0) (i 1))
    (56 * (t.val / 56)) 55 (fun h i => by rw [stepAt_apply, zero_block])
    (fun n h acc i _ _ => stepAt_apply m c n h acc i) (t.val % 56) (by omega) h' (ix2 p q)
  rw [scratchAt_eq_fold m c t.val t.isLt h']
  refine hfold.trans ?_
  rw [h1]
  show (0 : EReal) + ∑ s ∈ Finset.range 56, shareAt m c (56 * (t.val / 56) + s) p q = _
  rw [zero_add, Finset.sum_range]
  refine Eq.trans ?_ (out_eq_sum_tiles _ _ _ _ _ _ _).symm
  refine Finset.sum_congr rfl fun j _ => ?_
  have hj : j.val < 56 := j.isLt
  have e1 : (⟨(56 * (t.val / 56) + j.val) % 56, Nat.mod_lt _ (by decide)⟩ : Fin 56) = j := Fin.ext (by dsimp only; omega)
  have e2 : (⟨(56 * (t.val / 56) + j.val) / 56 % 32, Nat.mod_lt _ (by decide)⟩ : Fin 32) = ⟨t.val / 56, ha⟩ :=
    Fin.ext (by dsimp only; omega)
  unfold shareAt
  rw [e1, e2]

end Cert.KernelIdeal.Total

end
-- ==== Proof.Final.lean ====
/-
  From the output blocks to the result array.

  Only a token tile's last step writes its output block back, and that block — rows `256 a … 256 a + 255`, all
  4096 columns — then holds the layer's output for those rows. The 32 token tiles' blocks tile the [8192, 4096]
  array, every row `r` lying in the block of tile `r / 256`, so after the run the array is the layer's output
  at every index. The host's last line reshapes it to [4, 2048, 4096]: entry `(b, s, h)` is entry
  `(2048 b + s, h)`, which is the specification's `result` of the five argument arrays.
-/
import proofs.«136113_j6442450944690_1_alg».proof.Proof.Total
import Idealize.ShloMosaic.Lib.StableHlo.Run

noncomputable section

open scoped BigOperators

namespace Cert.KernelIdeal.Final

open Cert.KernelIdeal Cert.KernelIdeal.Gen Cert.KernelIdeal.Acc Cert.KernelIdeal.Total Idealize.ShloMosaic Idealize.ShloMosaic.TcCoe Idealize.SL.Sem
open Idealize.ShloMosaic.ValueIdx Cert.GatedMlp
open Idealize.ShloMosaic.Pipeline (Dat)

variable (m : (ℓ : Loc nD τ sig) → Buf (Elt Ideal) ℓ) (ρ : Dev nD → PrngReg)

/-- The output window's block index at point `t`: token tile `t / 56`, column block `0`. -/
theorem out_index : ∀ t : Fin cfg0.N, win0_5.index t (0 : Fin 2) = t.val / 56 ∧ win0_5.index t (1 : Fin 2) = 0 :=
  (by decide +kernel : ∀ t : Fin grid0.N, _)

/-- The layer's output over the flattened token axis, as the contents of the kernel's [8192, 4096] result array. -/
def layer (c : Dev nD) : S8192x4096.Idx → EReal := fun i => out (acts m c) (wgate m c) (wup m c) (wdown m c) (gates m c) (i 0) (i 1)

abbrev layerBuf (c : Dev nD) : Buf (Elt Ideal) ((c : Thread nD τ).loc main_v6) := layer m c

/-- What a token tile's last point writes back is that tile's block of the layer's output. -/
theorem flushed_eq (c : Dev nD) (t : Fin cfg0.N) (hf : (cfg0.win 5).flush t = true) :
    (dats m 0 c).flushed 5 t = ((cfg0.win 5).blk t).view.read (Elt Ideal) (layerBuf m c) := by
  have hN : t.val < 1792 := lt_of_lt_of_eq t.isLt (show cfg0.N = 1792 from N_0)
  have h1 : t.val % 56 = 55 := (flush0_5 t).mp hf
  have ha : t.val / 56 < 32 := by omega
  obtain ⟨e0, e1⟩ := out_index t
  show (cfg0.win 5).cut (grid0.coords t) ((dats m 0 c).after 5 t) = _
  rw [after0_5, output_eq_scratch m c t h1]
  funext j
  refine (congrArg (scratchAt m c t.val t.isLt) (@eq_ix2 256 4096 j)).trans
    ((total_apply m c t h1 ha (j 0) (j 1)).trans ?_)
  show out (acts m c) (wgate m c) (wup m c) (wdown m c) (gates m c) (tokenRow ⟨t.val / 56, ha⟩ (j 0)) (j 1)
    = out (acts m c) (wgate m c) (wup m c) (wdown m c) (gates m c) ((((cfg0.win 5).blk t).view.emb j) 0) ((((cfg0.win 5).blk t).view.emb j) 1)
  have er : tokenRow ⟨t.val / 56, ha⟩ (j 0) = (((cfg0.win 5).blk t).view.emb j) 0 := Fin.ext (by
    show 256 * (t.val / 56) + (j 0).val = win0_5.index t (0 : Fin 2) * 256 + 1 * (j 0).val
    rw [e0]; omega)
  have eh : j 1 = (((cfg0.win 5).blk t).view.emb j) 1 := Fin.ext (by
    show (j 1).val = win0_5.index t (1 : Fin 2) * 4096 + 1 * (j 1).val
    rw [e1]; omega)
  exact congrArg₂ (out (acts m c) (wgate m c) (wup m c) (wdown m c) (gates m c)) er eh

/-- An index of the array is in point `t`'s block iff each coordinate is in the block's range on its axis. -/
theorem mem_block (t : Fin cfg0.N) (i : S8192x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v6).slice (win0_5.rect t)).set ↔ _
  rw [View.set_slice_whole, Rect.mem_set_unit]
  exact Iff.rfl

/-- Row `r` lies in the block written back at the last point of token tile `r / 256`. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 1792 := N_0
  let t : Fin cfg0.N := ⟨56 * ((i 0).val / 256) + 55, by rw [hN]; omega⟩
  have htv : t.val = 56 * ((i 0).val / 256) + 55 := rfl
  obtain ⟨e0, e1⟩ := out_index t
  refine ⟨t, (flush0_5 t).mpr (by rw [htv]; omega), ?_⟩
  rw [mem_block]
  intro a
  match a with
  | ⟨0, _⟩ =>
    show win0_5.index t (0 : Fin 2) * 256 ≤ (i 0).val ∧ (i 0).val < win0_5.index t (0 : Fin 2) * 256 + 256
    rw [e0, htv]; omega
  | ⟨1, _⟩ =>
    show win0_5.index t (1 : Fin 2) * 4096 ≤ (i 1).val ∧ (i 1).val < win0_5.index t (1 : Fin 2) * 4096 + 4096
    rw [e1]; omega

/-- So the kernel's result array ends holding the layer's output. -/
theorem final_out (c : Dev nD) : (dats m 0 c).arrAt 5 cfg0.N = layerBuf m c :=
  (dats m 0 c).arrAt_eq_of_cover 5 (layerBuf m c) (flushed_eq m c) covered

/-- The reshape to [4, 2048, 4096] of the layer's output is the specification's `result`. -/
theorem reshape_layer (c : Dev nD) :
    shapeCast S4x2048x4096 (layer m c) shapeCasts_S8192x4096_S4x2048x4096
      = result (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, s, h, rfl⟩ : ∃ (b : Fin 4) (s : Fin 2048) (h : Fin 4096), i = ix3 b s h := ⟨i 0, i 1, i 2, eq_ix3 i⟩
  rw [shapeCast_apply (layer m c) shapeCasts_S8192x4096_S4x2048x4096 (ix3 b s h) (ix2 (rowOf b s) h) (by
    rw [Shape.rowMajor_val_two, Shape.rowMajor_val_three]
    show (2048 * b.val + s.val) * 4096 + h.val = (b.val * 2048 + s.val) * 4096 + h.val
    omega)]
  rfl

/-- What the host's last line leaves in the program's result. -/
theorem tail_eq (c : Dev nD) :
    Pipeline.afterTail₀ cfgs (dats m) 0 (V0 m) [hostOps1] c main_v7 = result (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v7) = _
  after_results
  have e := (Pipeline.withArrays_arr (cfgs 0).spec launch0.win.arr_inj c (V0 m c) (fun w => (dats m 0 c).arrAt w (cfgs 0).N) 5).trans
    (final_out m c)
  rw [show Pipeline.withArrays (cfgs 0).spec c (V0 m c) (fun w => (dats m 0 c).arrAt w (cfgs 0).N) (Proc.tc.devRef main_v6)
    = layerBuf m c from e]
  exact reshape_layer m c

/-- THE RUN, read: every weakly fair execution of the idealized kernel program terminates with its result at the
    specification's `result` of the five argument arrays, and the arguments unchanged. -/
theorem run : θ_run defs (onTc (τ := τ) (main (F := Ideal))) ⟨m, fun _ => 0, ρ⟩ fun r => ∀ c : Dev nD,
      r.2.mem ((c : Thread nD τ).loc main_v7) = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.RefIsSpec.lean ====
/-
  The reference program's result, over the extended reals, is the specification of the gated feed-forward layer.

  The reference computes, for every batch entry `b`, sequence position `s` and neuron `n`, the up projection
  `u = ∑ₖ x b s k · w_up n k` and the gate projection `g = ∑ₖ x b s k · w_gate n k`; the threshold mask
  `m = [|u · avg_gate n| ≥ 1/2]` as the number `0` or `1`; the gated value `silu (g · m) · (u · m)`, with `silu y`
  spelled `y · (1 / (1 + e^(-y)))`; and at `(b, s, h)` the down projection `∑ₙ gated b s n · w_down h n`.
  The specification does the same on the flattened token axis: token row `2048 b + s` of the flattened
  activations is row `(b, s)` of the activations, since `(2048 b + s) / 2048 = b` and `(2048 b + s) % 2048 = s`
  for `s < 2048`. So the two agree index by index.
-/
import proofs.«136113_j6442450944690_1_alg».proof.Proof.Gen.ReferenceIdeal.Read
import proofs.«136113_j6442450944690_1_alg».proof.Proof.SpecLaws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Read Cert.GatedMlp

/-! ## Index equations: the reference's composed index functions at an index given by coordinates -/

/-- The left operand's index of either projection's contraction at `(b, s, n)` and `k` is `(b, s, k)`. -/
theorem lidx_v0_ix (b : Fin 4) (s : Fin 2048) (n : Fin 14336) (k : Fin 4096) :
    lidx_main_v0 (ix3 b s n) k = ix3 b s k := by
  funext a
  match a with
  | ⟨0, _⟩ => rfl
  | ⟨1, _⟩ => rfl
  | ⟨2, _⟩ => rfl

/-- The right operand's index of either projection's contraction at `(b, s, n)` and `k` is `(n, k)`. -/
theorem ridx_v0_ix (b : Fin 4) (s : Fin 2048) (n : Fin 14336) (k : Fin 4096) :
    ridx_main_v0 (ix3 b s n) k = ix2 n k := by
  funext a
  match a with
  | ⟨0, _⟩ => rfl
  | ⟨1, _⟩ => rfl

theorem lidx_v8_ix (b : Fin 4) (s : Fin 2048) (n : Fin 14336) (k : Fin 4096) :
    lidx_main_v8 (ix3 b s n) k = ix3 b s k := by
  funext a
  match a with
  | ⟨0, _⟩ => rfl
  | ⟨1, _⟩ => rfl
  | ⟨2, _⟩ => rfl

theorem ridx_v8_ix (b : Fin 4) (s : Fin 2048) (n : Fin 14336) (k : Fin 4096) :
    ridx_main_v8 (ix3 b s n) k = ix2 n k := by
  funext a
  match a with
  | ⟨0, _⟩ => rfl
  | ⟨1, _⟩ => rfl

/-- The gated values' index of the down projection's contraction at `(b, s, h)` and neuron `n` is `(b, s, n)`. -/
theorem lidx_v13_ix (b : Fin 4) (s : Fin 2048) (h : Fin 4096) (n : Fin 14336) :
    lidx_main_v13 (ix3 b s h) n = ix3 b s n := by
  funext a
  match a with
  | ⟨0, _⟩ => rfl
  | ⟨1, _⟩ => rfl
  | ⟨2, _⟩ => rfl

/-- The down weights' index of that contraction is `(h, n)`. -/
theorem ridx_v13_ix (b : Fin 4) (s : Fin 2048) (h : Fin 4096) (n : Fin 14336) :
    ridx_main_v13 (ix3 b s h) n = ix2 h n := by
  funext a
  match a with
  | ⟨0, _⟩ => rfl
  | ⟨1, _⟩ => rfl

/-- The two broadcasts of the average gate read it at the neuron coordinate. -/
theorem idx_v1_v2_ix (b : Fin 4) (s : Fin 2048) (n : Fin 14336) :
    idx_main_v1 (idx_main_v2 (ix3 b s n)) = ix1 n := by
  funext a
  match a with
  | ⟨0, _⟩ => rfl

/-! ## The flattened token axis -/

/-- Token row `2048 b + s` of the flattened activations is row `(b, s)` of the activations. -/
theorem flatX_rowOf (x : Fin 4 → Fin 2048 → Fin 4096 → EReal) (b : Fin 4) (s : Fin 2048) (k : Fin 4096) :
    flatX x (rowOf b s) k = x b s k := by
  have hb := b.isLt
  have hs := s.isLt
  have h1 : (2048 * b.val + s.val) / 2048 = b.val := by omega
  have h2 : (2048 * b.val + s.val) % 2048 = s.val := by omega
  simp only [flatX, rowOf, h1, h2, Fin.eta]

/-! ## The reference's intermediate values at an index -/

section Values

variable (x0 : (⟨S4x2048x4096, .f32⟩ : BufTy).Contents (Elt Ideal))
  (x1 x2 : (⟨S14336x4096, .f32⟩ : BufTy).Contents (Elt Ideal))
  (x3 : (⟨S4096x14336, .f32⟩ : BufTy).Contents (Elt Ideal))
  (x4 : (⟨S14336, .f32⟩ : BufTy).Contents (Elt Ideal))

/-- The reference's `x · w_up^T` at `(b, s, n)` is the up projection of token row `2048 b + s` at neuron `n`. -/
theorem up_apply (b : Fin 4) (s : Fin 2048) (n : Fin 14336) :
    val_main_v0 (F := Ideal) x0 x2 (ix3 b s n)
      = up (flatX fun b s k => x0 (ix3 b s k)) (fun n k => x2 (ix2 n k)) (rowOf b s) n := by
  rw [val_main_v0_apply]
  unfold up
  refine Finset.sum_congr rfl fun k _ => ?_
  rw [lidx_v0_ix, ridx_v0_ix, flatX_rowOf]

/-- The reference's `x · w_gate^T` at `(b, s, n)` is the gate projection of token row `2048 b + s` at neuron `n`. -/
theorem gate_apply (b : Fin 4) (s : Fin 2048) (n : Fin 14336) :
    val_main_v8 (F := Ideal) x0 x1 (ix3 b s n)
      = gatePre (flatX fun b s k => x0 (ix3 b s k)) (fun n k => x1 (ix2 n k)) (rowOf b s) n := by
  rw [val_main_v8_apply]
  unfold gatePre
  refine Finset.sum_congr rfl fun k _ => ?_
  rw [lidx_v8_ix, ridx_v8_ix, flatX_rowOf]

/-- The reference's converted comparison at `(b, s, n)` is the threshold mask of the up projection and the neuron's
    average gate. -/
theorem mask_apply (b : Fin 4) (s : Fin 2048) (n : Fin 14336) :
    val_main_v7 (F := Ideal) x0 x2 x4 (ix3 b s n)
      = mask (up (flatX fun b s k => x0 (ix3 b s k)) (fun n k => x2 (ix2 n k)) (rowOf b s) n) (x4 (ix1 n)) := by
  rw [val_main_v7_apply, val_main_v6_apply, val_main_v4_apply, val_main_v3_apply, val_main_v5_apply,
    val_main_cst_apply, val_main_v2_apply, val_main_v1_apply, idx_v1_v2_ix, up_apply]
  rfl

/-- The reference's gated value at `(b, s, n)` is the specification's, of token row `2048 b + s` at neuron `n`. -/
theorem gated_apply (b : Fin 4) (s : Fin 2048) (n : Fin 14336) :
    val_main_v12 (F := Ideal) x0 x1 x2 x4 (ix3 b s n)
      = tv (flatX fun b s k => x0 (ix3 b s k)) (fun n k => x1 (ix2 n k)) (fun n k => x2 (ix2 n k))
          (fun n => x4 (ix1 n)) (rowOf b s) n := by
  rw [val_main_v12_apply, val_main_v10_apply, val_main_v11_apply, val_main_call0_v5_apply,
    val_main_call0_v4_apply, val_main_call0_cst_0_apply, val_main_call0_v3_apply, val_main_call0_v2_apply,
    val_main_call0_cst_apply, val_main_call0_v1_apply, val_main_call0_v0_apply, val_main_v9_apply,
    gate_apply, mask_apply, up_apply]
  simp only [Ideal.mulf_def, Ideal.addf_def, Ideal.hostDivf_def, Ideal.hostUnary_exp_def, Ideal.hostNegf_def,
    Ideal.negf_def, Ideal.ofBits_def]
  unfold tv gated
  rw [silu_spelled]

end Values

/-- THE REFERENCE IS THE SPECIFICATION: the reference program's result term is the layer, index by index. -/
theorem ref_is_result (x0 : (⟨S4x2048x4096, .f32⟩ : BufTy).Contents (Elt Ideal))
    (x1 x2 : (⟨S14336x4096, .f32⟩ : BufTy).Contents (Elt Ideal))
    (x3 : (⟨S4096x14336, .f32⟩ : BufTy).Contents (Elt Ideal))
    (x4 : (⟨S14336, .f32⟩ : BufTy).Contents (Elt Ideal)) :
    Cert.ReferenceIdeal.Read.val_main_v13 (F := Ideal) x0 x1 x2 x3 x4 = Cert.GatedMlp.result x0 x1 x2 x3 x4 := by
  funext i
  obtain ⟨b, s, h, rfl⟩ : ∃ b s h, i = ix3 b s h := ⟨i 0, i 1, i 2, eq_ix3 i⟩
  rw [val_main_v13_apply]
  show _ = out (flatX fun b s k => x0 (ix3 b s k)) (fun n k => x1 (ix2 n k)) (fun n k => x2 (ix2 n k))
    (fun h n => x3 (ix2 h n)) (fun n => x4 (ix1 n)) (rowOf b s) h
  unfold out
  refine Finset.sum_congr rfl fun n _ => ?_
  rw [lidx_v13_ix, ridx_v13_ix, gated_apply]

end Cert.ReferenceIdeal.RefValue

end
-- ==== Proof.lean ====
/-
  The certificate of a gated feed-forward layer computed by one Pallas kernel against its jnp reference.

  The layer: for token row `r` and neuron `i`, `u = ∑ₖ x r k · w_up i k` and `g = ∑ₖ x r k · w_gate i k`; the mask is
  `1` where `|u · avg_gate i| ≥ 1/2` and `0` elsewhere; the gated value is `silu (g · mask) · (u · mask)`; the output
  at `(r, h)` is `∑ᵢ gated r i · w_down h i`.

  The kernel flattens batch and sequence into 8192 token rows, converts the inputs to bf16 (the identity over the
  extended reals), and walks a 32 × 56 grid of 256-row token tiles and 256-neuron tiles, adding one neuron tile's
  share of the down projection into a scratch block per step and writing the block out after the 56th. The
  reference computes the three einsums whole. Over the extended reals the two are the same function of the five
  arrays (Spec.lean's `result`): the kernel's 56 partial sums regroup the reference's one sum over 14336 neurons,
  which needs only that addition is commutative and associative — no finiteness, so the precondition is never opened;
  the kernel's mask (a bit widened and read signed) and the reference's (the bit read unsigned) are the same number;
  and the kernel's logistic is the reference's `1 / (1 + e^(-y))`.

  The three frames are the generated frame runs (the reference's is its generated run with the result dropped); the
  ideal pass rewrote nothing, so the kernel's idealization is its own text read over the extended reals.
-/
import proofs.«136113_j6442450944690_1_alg».proof.Defs
import proofs.«136113_j6442450944690_1_alg».proof.Proof.Gen.Kernel
import proofs.«136113_j6442450944690_1_alg».proof.Proof.Gen.Kernel.Skeleton
import proofs.«136113_j6442450944690_1_alg».proof.Proof.Gen.Kernel.Launch
import proofs.«136113_j6442450944690_1_alg».proof.Proof.Gen.Kernel.Points
import proofs.«136113_j6442450944690_1_alg».proof.Proof.Gen.Kernel.Frame
import proofs.«136113_j6442450944690_1_alg».proof.Proof.Gen.KernelIdeal
import proofs.«136113_j6442450944690_1_alg».proof.Proof.Gen.KernelIdeal.Skeleton
import proofs.«136113_j6442450944690_1_alg».proof.Proof.Gen.KernelIdeal.Launch
import proofs.«136113_j6442450944690_1_alg».proof.Proof.Gen.KernelIdeal.Points
import proofs.«136113_j6442450944690_1_alg».proof.Proof.Gen.KernelIdeal.Frame
import proofs.«136113_j6442450944690_1_alg».proof.Proof.Gen.ReferenceIdeal
import proofs.«136113_j6442450944690_1_alg».proof.Proof.Gen.ReferenceIdeal.Run
import proofs.«136113_j6442450944690_1_alg».proof.Proof.Gen.ReferenceIdeal.Read
import proofs.«136113_j6442450944690_1_alg».proof.Proof.Gen.Pre_finite_inputs
import proofs.«136113_j6442450944690_1_alg».proof.Proof.Final
import proofs.«136113_j6442450944690_1_alg».proof.Proof.RefIsSpec
import Idealize.ShloMosaic.Adequacy
import Idealize.ShloMosaic.Init

noncomputable section

namespace Cert.Proof

open Idealize.ShloMosaic Idealize.SL.Sem

/-- The kernel as printed runs, faults nowhere, and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the five arguments both programs end with the specification's `result` of them. -/
theorem algebraic : Cert.algebraic_KernelIdeal_ReferenceIdeal := by
  intro m ρ m' ρ' _ hagree
  refine ⟨fun c => Cert.GatedMlp.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.ref_is_result, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
